-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x256 : Shape := ⟨2, ![4096, 256]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  reducesTo_S_S_d : S_.ReducesTo [] S_

variable [Facts]

def fn {F : FTy → Type} [FloatOps F] (main_arg0 : FVec F S8192x4096 .f32) (main_arg1 : IVec S4096x256 32) (main_arg2 : FVec F S_ .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  main_v7
-- ==== Kernel.lean ====
abbrev S8192x4096 : Shape := ⟨2, ![8192, 4096]⟩
abbrev S4096x256 : Shape := ⟨2, ![4096, 256]⟩
abbrev S_ : Shape := ⟨0, ![]⟩
abbrev S4096 : Shape := ⟨1, ![4096]⟩
abbrev S4096x256x16 : Shape := ⟨3, ![4096, 256, 16]⟩
abbrev S4096x4096 : Shape := ⟨2, ![4096, 4096]⟩
abbrev S1x4096 : Shape := ⟨2, ![1, 4096]⟩
abbrev S1x1 : Shape := ⟨2, ![1, 1]⟩
abbrev S256x4096 : Shape := ⟨2, ![256, 4096]⟩
abbrev S2048x4096 : Shape := ⟨2, ![2048, 4096]⟩
abbrev S256x2048 : Shape := ⟨2, ![256, 2048]⟩

abbrev nBuf : Space → Nat
  | .hbm => 44
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x256, .i32⟩
  | .hbm, ⟨2, _⟩ => ⟨S_, .f32⟩
  | .hbm, ⟨3, _⟩ => ⟨S4096, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S_, .i1⟩
  | .hbm, ⟨20, _⟩ => ⟨S4096, .i1⟩
  | .hbm, ⟨21, _⟩ => ⟨S4096, .i1⟩
  | .hbm, ⟨22, _⟩ => ⟨S4096, .i1⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096x256x16, .i32⟩
  | .hbm, ⟨30, _⟩ => ⟨S4096x4096, .i32⟩
  | .hbm, ⟨31, _⟩ => ⟨S1x4096, .i32⟩
  | .hbm, ⟨32, _⟩ => ⟨S4096x4096, .i32⟩
  | .hbm, ⟨33, _⟩ => ⟨S4096x4096, .i32⟩
  | .hbm, ⟨34, _⟩ => ⟨S_, .i32⟩
  | .hbm, ⟨35, _⟩ => ⟨S4096x4096, .i32⟩
  | .hbm, ⟨36, _⟩ => ⟨S4096x4096, .i32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .bf16⟩
  | .hbm, ⟨42, _⟩ => ⟨S1x1, .f32⟩
  | .hbm, ⟨43, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S2048x4096, .bf16⟩
  | .local _ .vmem, ⟨3, _⟩ => ⟨S1x1, .f32⟩
  | .local _ .vmem, ⟨4, _⟩ => ⟨S256x2048, .f32⟩
  | .local _ .vmem, ⟨5, _⟩ => ⟨S256x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_c_1 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4096 : S_.BroadcastsInDim S4096 (![] : Fin 0 → Fin S4096.rank)
  bcast_S4096x256_S4096x256x16_0_1 : S4096x256.BroadcastsInDim S4096x256x16 (![0, 1] : Fin 2 → Fin S4096x256x16.rank)
  shapeCasts_S4096x256x16_S4096x4096 : S4096x256x16.ShapeCasts S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bitsLt_bf16_f32 : FTy.bits .bf16 < FTy.bits .f32
  shapeCasts_S_S1x1 : S_.ShapeCasts S1x1
  inb_S256x4096_S256x4096_0_0 : ∀ a, (![0, 0] : Fin 2 → Nat) a + S256x4096.size a ≤ S256x4096.size a
  h_S256x4096 : 0 < S256x4096.numel
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x2048 : S1x1.Broadcasts S256x2048
  inb_S256x2048_S256x2048_0_0 : ∀ a, (![0, 0] : Fin 2 → Nat) a + S256x2048.size a ≤ S256x2048.size a
  h_S256x2048 : 0 < S256x2048.numel
  dot_S256x4096_S2048x4096_S256x2048_1_1_0_0_n_n_wf : DotDims.WF S256x4096 S2048x4096 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4096.size a ≤ S4096x4096.size a
  hwx0_1 : ∀ i : grid0.Coords, EltTy.bits .bf16 = 32 ∨ (Rect.block (s := S4096x4096) S2048x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S8192x4096.size a
  hwx0_3 : ∀ i : grid0.Coords, EltTy.bits .f32 = 32 ∨ (Rect.block (s := S8192x4096) S256x2048.size (cc0_transform_3 i) (hinb0_3 i)).WholeWords (EltTy.packing .f32)

variable [Facts₀]

def dot_S256x4096_S2048x4096_S256x2048_1_1_0_0_n_n : DotDims S256x4096 S2048x4096 S256x2048 where
  lhsContracting := [1]
  rhsContracting := [1]
  lhsNonContracting := [0]
  rhsNonContracting := [0]
  lhsBatch := []
  rhsBatch := []
  wf := dot_S256x4096_S2048x4096_S256x2048_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x256 : Shape := ⟨2, ![4096, 256]⟩
abbrev S_ : Shape := ⟨0, ![]⟩
abbrev S16 : Shape := ⟨1, ![16]⟩
abbrev S4096x256x1 : Shape := ⟨3, ![4096, 256, 1]⟩
abbrev S1x1x16 : Shape := ⟨3, ![1, 1, 16]⟩
abbrev S4096x256x16 : Shape := ⟨3, ![4096, 256, 16]⟩
abbrev S4096x4096 : Shape := ⟨2, ![4096, 4096]⟩
abbrev S8192 : Shape := ⟨1, ![8192]⟩
abbrev S8192x1 : Shape := ⟨2, ![8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x256, .i32⟩
  | .hbm, ⟨2, _⟩ => ⟨S_, .f32⟩
  | .hbm, ⟨3, _⟩ => ⟨S16, .i32⟩
  | .hbm, ⟨4, _⟩ => ⟨S_, .i32⟩
  | .hbm, ⟨5, _⟩ => ⟨S16, .i32⟩
  | .hbm, ⟨6, _⟩ => ⟨S16, .i32⟩
  | .hbm, ⟨7, _⟩ => ⟨S4096x256x1, .i32⟩
  | .hbm, ⟨8, _⟩ => ⟨S1x1x16, .i32⟩
  | .hbm, ⟨9, _⟩ => ⟨S4096x256x16, .i32⟩
  | .hbm, ⟨10, _⟩ => ⟨S4096x256x16, .i32⟩
  | .hbm, ⟨11, _⟩ => ⟨S4096x256x16, .i32⟩
  | .hbm, ⟨12, _⟩ => ⟨S_, .i32⟩
  | .hbm, ⟨13, _⟩ => ⟨S4096x256x16, .i32⟩
  | .hbm, ⟨14, _⟩ => ⟨S4096x256x16, .i32⟩
  | .hbm, ⟨15, _⟩ => ⟨S4096x4096, .i32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S8192x4096, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S4096x256_S4096x256x1_0_1 : S4096x256.BroadcastsInDim S4096x256x1 (![0, 1] : Fin 2 → Fin S4096x256x1.rank)
  bcast_S16_S1x1x16_2 : S16.BroadcastsInDim S1x1x16 (![2] : Fin 1 → Fin S1x1x16.rank)
  bcast_S4096x256x1_S4096x256x16_0_1_2 : S4096x256x1.BroadcastsInDim S4096x256x16 (![0, 1, 2] : Fin 3 → Fin S4096x256x16.rank)
  bcast_S1x1x16_S4096x256x16_0_1_2 : S1x1x16.BroadcastsInDim S4096x256x16 (![0, 1, 2] : Fin 3 → Fin S4096x256x16.rank)
  bcast_S_S4096x256x16 : S_.BroadcastsInDim S4096x256x16 (![] : Fin 0 → Fin S4096x256x16.rank)
  shapeCasts_S4096x256x16_S4096x4096 : S4096x256x16.ShapeCasts S4096x4096
  bcast_S_S4096x4096 : S_.BroadcastsInDim S4096x4096 (![] : Fin 0 → Fin S4096x4096.rank)
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.KernelBody.lean ====
/-
  The kernel's body at one entry of its output block.

  The body multiplies a [256, 4096] block of activations with the transpose of a [2048, 4096] block of weights into a
  zero accumulator, and multiplies the product by the one scale entry, broadcast. A change of float format is the
  identity on the extended reals, so at entry `(p, q)` the stored value is the inner product of row `p` of the
  activation block with row `q` of the weight block, times the scale entry.
-/
import proofs.«411865_j57939108823183_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The contraction's operand indices, axis by axis -/

theorem lhs_axis0 (i : S256x2048.Idx) (q : dot_S256x4096_S2048x4096_S256x2048_1_1_0_0_n_n.contr.Idx) :
    (dot_S256x4096_S2048x4096_S256x2048_1_1_0_0_n_n.lhsIdx i q 0).val = (i 0).val := by
  unfold DotDims.lhsIdx
  rw [dif_neg (show ¬(0 : Fin S256x4096.rank) ∈ dot_S256x4096_S2048x4096_S256x2048_1_1_0_0_n_n.lhsBatch by decide), dif_pos (show (0 : Fin S256x4096.rank) ∈ dot_S256x4096_S2048x4096_S256x2048_1_1_0_0_n_n.lhsNonContracting by decide)]
  rfl
theorem lhs_axis1 (i : S256x2048.Idx) (q : dot_S256x4096_S2048x4096_S256x2048_1_1_0_0_n_n.contr.Idx) :
    (dot_S256x4096_S2048x4096_S256x2048_1_1_0_0_n_n.lhsIdx i q 1).val = (q ⟨0, by decide⟩).val :=
  dot_S256x4096_S2048x4096_S256x2048_1_1_0_0_n_n.lhsIdx_val_of_single rfl i q
theorem rhs_axis0 (i : S256x2048.Idx) (q : dot_S256x4096_S2048x4096_S256x2048_1_1_0_0_n_n.contr.Idx) :
    (dot_S256x4096_S2048x4096_S256x2048_1_1_0_0_n_n.rhsIdx i q 0).val = (i 1).val := by
  unfold DotDims.rhsIdx
  rw [dif_neg (show ¬(0 : Fin S2048x4096.rank) ∈ dot_S256x4096_S2048x4096_S256x2048_1_1_0_0_n_n.rhsBatch by decide), dif_pos (show (0 : Fin S2048x4096.rank) ∈ dot_S256x4096_S2048x4096_S256x2048_1_1_0_0_n_n.rhsNonContracting by decide)]
  rfl
theorem rhs_axis1 (i : S256x2048.Idx) (q : dot_S256x4096_S2048x4096_S256x2048_1_1_0_0_n_n.contr.Idx) :
    (dot_S256x4096_S2048x4096_S256x2048_1_1_0_0_n_n.rhsIdx i q 1).val = (q ⟨0, by decide⟩).val :=
  dot_S256x4096_S2048x4096_S256x2048_1_1_0_0_n_n.rhsIdx_val_of_single rfl i q

/-- The product of a [256, 4096] block with the transpose of a [2048, 4096] block, from zero, at `(p, q)`: row `p`
    of the first against row `q` of the second. -/
theorem product_at {φ₁ φ₂ : FTy} (l : FVec Ideal S256x4096 φ₁) (r : FVec Ideal S2048x4096 φ₂) (p : Fin 256) (q : Fin 2048) :
    matmul dot_S256x4096_S2048x4096_S256x2048_1_1_0_0_n_n none l r (constant (F := Ideal) S256x2048 .f32 0x00000000#32) (ix2 p q)
      = ∑ k : Fin 4096, l (ix2 p k) * r (ix2 q k) := by
  show FloatOps.matmul dot_S256x4096_S2048x4096_S256x2048_1_1_0_0_n_n none l r (constant (F := Ideal) S256x2048 .f32 0x00000000#32) (ix2 p q) = _
  rw [Ideal.matmul_constant_zero_apply, ← Equiv.sum_comp (ValueIdx.contrEquiv1 dot_S256x4096_S2048x4096_S256x2048_1_1_0_0_n_n 4096 rfl rfl).symm]
  refine Finset.sum_congr rfl fun k _ => ?_
  have hk := ValueIdx.contrEquiv1_symm_val dot_S256x4096_S2048x4096_S256x2048_1_1_0_0_n_n 4096 rfl rfl k
  have el : dot_S256x4096_S2048x4096_S256x2048_1_1_0_0_n_n.lhsIdx (ix2 p q) ((ValueIdx.contrEquiv1 dot_S256x4096_S2048x4096_S256x2048_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S256x4096_S2048x4096_S256x2048_1_1_0_0_n_n.rhsIdx (ix2 p q) ((ValueIdx.contrEquiv1 dot_S256x4096_S2048x4096_S256x2048_1_1_0_0_n_n 4096 rfl rfl).symm k) = ix2 q k := funext fun a => Fin.ext (by
    match a with
    | ⟨0, _⟩ => exact rhs_axis0 _ _
    | ⟨1, _⟩ => exact (rhs_axis1 _ _).trans hk)
  rw [el, er]

/-- The one scale entry, broadcast over the block, read at any entry. -/
theorem scale_at (s : Vec Ideal S1x1 .f32) (j : S256x2048.Idx) :
    broadcastTo S256x2048 (shapeCast S1x1 s shapeCasts_S1x1_S1x1) broadcasts_S1x1_S256x2048 j = s (ix2 0 0) := by
  rw [shapeCast_self]
  refine broadcastTo_apply s broadcasts_S1x1_S256x2048 j (ix2 0 0) (fun a => ?_)
  match a with
  | ⟨0, _⟩ => show (0 : Nat) = if (1 : Nat) = 1 then 0 else _; rw [if_pos rfl]
  | ⟨1, _⟩ => show (0 : Nat) = if (1 : Nat) = 1 then 0 else _; rw [if_pos rfl]

/-- What the body stores, at entry `(p, q)` of the output block. -/
theorem stored_at (x0 : Vec Ideal S256x4096 .f32) (w0 : Vec Ideal S2048x4096 .bf16) (s0 : Vec Ideal S1x1 .f32) (p : Fin 256) (q : Fin 2048) :
    k0_pay1 (F := Ideal) x0 w0 s0 (ix2 p q) = (∑ k : Fin 4096, x0 (ix2 p k) * w0 (ix2 q k)) * s0 (ix2 0 0) := by
  unfold k0_pay1
  show FloatOps.mulf (F := Ideal) _ _ = _
  rw [scale_at, shapeCast_self]
  show (matmul dot_S256x4096_S2048x4096_S256x2048_1_1_0_0_n_n none (truncf (F := Ideal) .bf16 x0 bitsLt_bf16_f32) w0 (constant (F := Ideal) S256x2048 .f32 0x00000000#32) (ix2 p q)) * _ = _
  rw [product_at]
  rfl

end Cert.KernelIdeal.Body

end
-- ==== Proof.KernelArray.lean ====
/-
  From blocks to the array: what the kernel leaves in its output array.

  The grid has 2 × 32 points; point (a, b) stores the [256, 2048] block at row block `b`, column block `a` of the
  [8192, 4096] output, from row block `b` of the activations and row block `a` of the weights. The 64 blocks tile the
  array, so the array ends at ONE function of the three arrays the region reads: rows against rows, times the scale.
-/
import proofs.«411865_j57939108823183_3_alg».proof.Proof.Gen.KernelIdeal.Value
import proofs.«411865_j57939108823183_3_alg».proof.Proof.KernelBody

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Rows of `X` against rows of `W`, times the one entry of `S`: entry `(t, o)` is the inner product of row `t` of
    `X` with row `o` of `W`, scaled. -/
def rowsByRows (X : S8192x4096.Idx → Ideal .f32) (W : S4096x4096.Idx → Ideal .bf16) (S : S1x1.Idx → Ideal .f32) :
    S8192x4096.Idx → Ideal .f32 :=
  fun j => (∑ k : Fin 4096, X (ix2 (⟨(j 0).val, idx2_lt0 j⟩ : Fin 8192) k) * W (ix2 (⟨(j 1).val, idx2_lt1 j⟩ : Fin 4096) k)) * S (ix2 0 0)

/-- The printed index maps over the grid's 64 points: the activation window moves with the output's row block, the
    weight window with its column block, neither moves along the contracted axis, and the scale window stays. -/
theorem index_maps : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = 0
    ∧ win0_3.index t (0 : Fin 2) ≤ 31
    ∧ win0_3.index t (1 : Fin 2) ≤ 1 :=
  (by decide +kernel : ∀ t : Fin grid0.N, _)

/-- Every block of the output array is some point's. -/
theorem every_block : ∀ (q0 : Fin 32) (q1 : Fin 2), ∃ t : Fin cfg0.N, win0_3.index t = ![q0.val, q1.val] :=
  (by decide +kernel : ∀ (q0 : Fin 32) (q1 : Fin 2), ∃ t : Fin grid0.N, win0_3.index t = ![q0.val, q1.val])

/-- What point `t` writes back is block `t` of `rowsByRows` of the arrays as the region finds them: the body's entry
    `(p, q)` reads row `p` of the activation block and row `q` of the weight block, which are the array rows that the
    output block's entry `(p, q)` names. -/
theorem flushed_eq (c : Dev nD) (t : Fin cfg0.N) :
    (dats m 0 c).flushed 3 t = ((cfg0.win 3).blk t).view.read (Elt Ideal) (rowsByRows (V m c main_arg0) (V m c main_v14) (V m c main_v15)) := by
  rw [Value.flushed3]
  unfold out0_3
  rw [View.canon_unit_zero origin]
  simp only [View.ld_unit_zero (S := S256x4096) origin, View.ld_unit_zero (S := S2048x4096) origin, View.ld_unit_zero (S := S1x1) origin]
  obtain ⟨e0, e1, e2, e3, e4, e5, e6, e7⟩ := index_maps t
  funext j
  obtain ⟨p, q, rfl⟩ : ∃ (p : Fin 256) (q : Fin 2048), j = ix2 p q := ⟨j 0, j 1, eq_ix2 j⟩
  show k0_pay1 (F := Ideal) (iblk m c 0 t) (iblk m c 1 t) (iblk m c 2 t) (ix2 p q)
    = rowsByRows (V m c main_arg0) (V m c main_v14) (V m c main_v15) (((cfg0.win 3).blk t).view.emb (ix2 p q))
  refine (Body.stored_at (iblk m c 0 t) (iblk m c 1 t) (iblk m c 2 t) p q).trans ?_
  unfold rowsByRows
  have hx : ∀ k : Fin 4096, iblk m c 0 t (ix2 p k)
      = V m c main_arg0 (ix2 (⟨((((cfg0.win 3).blk t).view.emb (ix2 p q)) 0).val, idx2_lt0 _⟩ : Fin 8192) k) := by
    intro k
    show V m c main_arg0 (((cfg0.win 0).blk t).view.emb (ix2 p k)) = _
    refine congrArg (V m c main_arg0) (funext fun a => Fin.ext ?_)
    match a with
    | ⟨0, _⟩ => show win0_0.index t (0 : Fin 2) * 256 + 1 * p.val = win0_3.index t (0 : Fin 2) * 256 + 1 * p.val; omega
    | ⟨1, _⟩ => show win0_0.index t (1 : Fin 2) * 4096 + 1 * k.val = k.val; omega
  have hw : ∀ k : Fin 4096, iblk m c 1 t (ix2 q k)
      = V m c main_v14 (ix2 (⟨((((cfg0.win 3).blk t).view.emb (ix2 p q)) 1).val, idx2_lt1 _⟩ : Fin 4096) k) := by
    intro k
    show V m c main_v14 (((cfg0.win 1).blk t).view.emb (ix2 q k)) = _
    refine congrArg (V m c main_v14) (funext fun a => Fin.ext ?_)
    match a with
    | ⟨0, _⟩ => show win0_1.index t (0 : Fin 2) * 2048 + 1 * q.val = win0_3.index t (1 : Fin 2) * 2048 + 1 * q.val; omega
    | ⟨1, _⟩ => show win0_1.index t (1 : Fin 2) * 4096 + 1 * k.val = k.val; omega
  have hs : iblk m c 2 t (ix2 0 0) = V m c main_v15 (ix2 0 0) := by
    show V m c main_v15 (((cfg0.win 2).blk t).view.emb (ix2 0 0)) = _
    refine congrArg (V m c main_v15) (funext fun a => Fin.ext ?_)
    match a with
    | ⟨0, _⟩ => show win0_2.index t (0 : Fin 2) * 1 + 1 * 0 = 0; omega
    | ⟨1, _⟩ => show win0_2.index t (1 : Fin 2) * 1 + 1 * 0 = 0; omega
  exact congrArg₂ (· * ·) (Finset.sum_congr rfl fun k _ => congrArg₂ (· * ·) (hx k) (hw k)) hs

/-- An index of the output array lies in point `t`'s block iff each coordinate lies in the block's range on its axis. -/
theorem mem_block (t : Fin cfg0.N) (i : S8192x4096.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v16).slice (win0_3.rect t)).set ↔ _
  rw [View.set_slice_whole, Rect.mem_set_unit]
  exact Iff.rfl

/-- Every index of the output array lies in some point's block: the point whose block is row block `i₀ / 256`, column
    block `i₁ / 2048`. -/
theorem covered (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := every_block ⟨(i 0).val / 256, by omega⟩ ⟨(i 1).val / 2048, by omega⟩
  have q0 : win0_3.index t (0 : Fin 2) = (i 0).val / 256 := congrFun ht 0
  have q1 : win0_3.index t (1 : Fin 2) = (i 1).val / 2048 := congrFun ht 1
  refine ⟨t, flush0_3 t, ?_⟩
  rw [mem_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 2048 ≤ (i 1).val ∧ (i 1).val < win0_3.index t (1 : Fin 2) * 2048 + 2048; omega

/-- The output array after the run. -/
theorem final (c : Dev nD) :
    (dats m 0 c).arrAt 3 cfg0.N = rowsByRows (V m c main_arg0) (V m c main_v14) (V m c main_v15) :=
  (dats m 0 c).arrAt_eq_of_cover 3 _ (fun t _ => flushed_eq m c t) covered

/-- The kernel's run: every weakly fair execution ends with the output array at `rowsByRows` of the activations as
    launched and of the weight and scale arrays the host operations before the region leave, the arguments unchanged. -/
theorem run : θ_run defs (onTc (τ := τ) (main (F := Ideal))) ⟨m, fun _ => 0, ρ⟩ fun r => ∀ c : Dev nD,
      r.2.mem ((c : Thread nD τ).loc main_v16)
        = rowsByRows (m ((c : Thread nD τ).loc main_arg0)) (V m c main_v14) (V m c main_v15)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1.trans (final m c)).trans (by rw [V_main_arg0]), (h c).2⟩)
    (Value.run_blocks m ρ)

end Cert.KernelIdeal.Whole

end
-- ==== Proof.KernelPrefix.lean ====
/-
  The arrays the kernel's region finds: what the host operations before it leave.

  Before the region the host unpacks the weights. Column `i` of every row is shifted right by twice `i mod 16` —
  the remainder that takes the divisor's sign, spelt as the machine remainder plus a correction for operands of opposite sign — after each packed
  word has been repeated sixteen times along the row; the low two bits are kept, read as an integer, one is
  subtracted, and the result is narrowed to the matrix unit's input format. The scale is reshaped to a [1, 1] block.
  Here the forty operations are listed in order over the program's buffers, and the weight array and the scale block
  are read off that list as terms of the packed array and of the scale.
-/
import proofs.«411865_j57939108823183_3_alg».proof.Proof.Gen.KernelIdeal.Frame
import Idealize.ShloMosaic.Lib.StableHlo.Run

noncomputable section

namespace Cert.KernelIdeal.Prefix

open Cert.KernelIdeal Cert.KernelIdeal.Gen Idealize.ShloMosaic Idealize.ShloMosaic.TcCoe Idealize.SL.Sem Idealize.ShloMosaic.StableHlo

variable {F : FTy → Type} [FloatOps F]

/-- The forty host operations before the region, in order; the remainder function's twenty-one stand where it is
    called, over that call's buffers. -/
abbrev ops : List (HloOp τ sig (Elt F)) :=
  [ nullary main_v0 (iotaInDim S4096 32 0),
    nullary main_c (constantI S_ 32 16#32),
    unary main_c main_call0_v0 (id : (⟨S_, .i32⟩ : BufTy).Contents (Elt F) → (⟨S_, .i32⟩ : BufTy).Contents (Elt F)),
    nullary main_call0_c (constantI S_ 32 0#32),
    binary main_call0_v0 main_call0_c main_call0_v1 (cmpi .eq : (⟨S_, .i32⟩ : BufTy).Contents (Elt F) → (⟨S_, .i32⟩ : BufTy).Contents (Elt F) → (⟨S_, .i1⟩ : BufTy).Contents (Elt F)),
    nullary main_call0_c_0 (constantI S_ 32 1#32),
    ternary main_call0_v1 main_call0_c_0 main_call0_v0 main_call0_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_call0_v2 main_call0_v3 (broadcastInDim S4096 ![] bcast_S_S4096 : (⟨S_, .i32⟩ : BufTy).Contents (Elt F) → (⟨S4096, .i32⟩ : BufTy).Contents (Elt F)),
    binary main_v0 main_call0_v3 main_call0_v4 (Host.remsi : (⟨S4096, .i32⟩ : BufTy).Contents (Elt F) → (⟨S4096, .i32⟩ : BufTy).Contents (Elt F) → (⟨S4096, .i32⟩ : BufTy).Contents (Elt F)),
    nullary main_call0_c_1 (constantI S_ 32 0#32),
    unary main_call0_c_1 main_call0_v5 (broadcastInDim S4096 ![] bcast_S_S4096 : (⟨S_, .i32⟩ : BufTy).Contents (Elt F) → (⟨S4096, .i32⟩ : BufTy).Contents (Elt F)),
    binary main_call0_v4 main_call0_v5 main_call0_v6 (cmpi .ne : (⟨S4096, .i32⟩ : BufTy).Contents (Elt F) → (⟨S4096, .i32⟩ : BufTy).Contents (Elt F) → (⟨S4096, .i1⟩ : BufTy).Contents (Elt F)),
    nullary main_call0_c_2 (constantI S_ 32 0#32),
    unary main_call0_c_2 main_call0_v7 (broadcastInDim S4096 ![] bcast_S_S4096 : (⟨S_, .i32⟩ : BufTy).Contents (Elt F) → (⟨S4096, .i32⟩ : BufTy).Contents (Elt F)),
    binary main_call0_v4 main_call0_v7 main_call0_v8 (cmpi .slt : (⟨S4096, .i32⟩ : BufTy).Contents (Elt F) → (⟨S4096, .i32⟩ : BufTy).Contents (Elt F) → (⟨S4096, .i1⟩ : BufTy).Contents (Elt F)),
    nullary main_call0_c_3 (constantI S_ 32 0#32),
    binary main_call0_v2 main_call0_c_3 main_call0_v9 (cmpi .slt : (⟨S_, .i32⟩ : BufTy).Contents (Elt F) → (⟨S_, .i32⟩ : BufTy).Contents (Elt F) → (⟨S_, .i1⟩ : BufTy).Contents (Elt F)),
    unary main_call0_v9 main_call0_v10 (broadcastInDim S4096 ![] bcast_S_S4096 : (⟨S_, .i1⟩ : BufTy).Contents (Elt F) → (⟨S4096, .i1⟩ : BufTy).Contents (Elt F)),
    binary main_call0_v8 main_call0_v10 main_call0_v11 (cmpi .ne : (⟨S4096, .i1⟩ : BufTy).Contents (Elt F) → (⟨S4096, .i1⟩ : BufTy).Contents (Elt F) → (⟨S4096, .i1⟩ : BufTy).Contents (Elt F)),
    binary main_call0_v11 main_call0_v6 main_call0_v12 (andi : (⟨S4096, .i1⟩ : BufTy).Contents (Elt F) → (⟨S4096, .i1⟩ : BufTy).Contents (Elt F) → (⟨S4096, .i1⟩ : BufTy).Contents (Elt F)),
    unary main_call0_v2 main_call0_v13 (broadcastInDim S4096 ![] bcast_S_S4096 : (⟨S_, .i32⟩ : BufTy).Contents (Elt F) → (⟨S4096, .i32⟩ : BufTy).Contents (Elt F)),
    binary main_call0_v4 main_call0_v13 main_call0_v14 (addi : (⟨S4096, .i32⟩ : BufTy).Contents (Elt F) → (⟨S4096, .i32⟩ : BufTy).Contents (Elt F) → (⟨S4096, .i32⟩ : BufTy).Contents (Elt F)),
    ternary main_call0_v12 main_call0_v14 main_call0_v4 main_v1 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_0 (constantI S_ 32 2#32),
    unary main_c_0 main_v2 (broadcastInDim S4096 ![] bcast_S_S4096 : (⟨S_, .i32⟩ : BufTy).Contents (Elt F) → (⟨S4096, .i32⟩ : BufTy).Contents (Elt F)),
    binary main_v1 main_v2 main_v3 (muli : (⟨S4096, .i32⟩ : BufTy).Contents (Elt F) → (⟨S4096, .i32⟩ : BufTy).Contents (Elt F) → (⟨S4096, .i32⟩ : BufTy).Contents (Elt F)),
    unary main_arg1 main_v4 (broadcastInDim S4096x256x16 ![0, 1] bcast_S4096x256_S4096x256x16_0_1 : (⟨S4096x256, .i32⟩ : BufTy).Contents (Elt F) → (⟨S4096x256x16, .i32⟩ : BufTy).Contents (Elt F)),
    reshape main_v4 main_v5 rfl shapeCasts_S4096x256x16_S4096x4096,
    unary main_v3 main_v6 (broadcastInDim S1x4096 ![1] bcast_S4096_S1x4096_1 : (⟨S4096, .i32⟩ : BufTy).Contents (Elt F) → (⟨S1x4096, .i32⟩ : BufTy).Contents (Elt F)),
    unary main_v6 main_v7 (broadcastInDim S4096x4096 ![0, 1] bcast_S1x4096_S4096x4096_0_1 : (⟨S1x4096, .i32⟩ : BufTy).Contents (Elt F) → (⟨S4096x4096, .i32⟩ : BufTy).Contents (Elt F)),
    binary main_v5 main_v7 main_v8 (Host.shrsi : (⟨S4096x4096, .i32⟩ : BufTy).Contents (Elt F) → (⟨S4096x4096, .i32⟩ : BufTy).Contents (Elt F) → (⟨S4096x4096, .i32⟩ : BufTy).Contents (Elt F)),
    nullary main_c_1 (constantI S_ 32 3#32),
    unary main_c_1 main_v9 (broadcastInDim S4096x4096 ![] bcast_S_S4096x4096 : (⟨S_, .i32⟩ : BufTy).Contents (Elt F) → (⟨S4096x4096, .i32⟩ : BufTy).Contents (Elt F)),
    binary main_v8 main_v9 main_v10 (andi : (⟨S4096x4096, .i32⟩ : BufTy).Contents (Elt F) → (⟨S4096x4096, .i32⟩ : BufTy).Contents (Elt F) → (⟨S4096x4096, .i32⟩ : BufTy).Contents (Elt F)),
    unary main_v10 main_v11 (sitofp .f32 : (⟨S4096x4096, .i32⟩ : BufTy).Contents (Elt F) → (⟨S4096x4096, .f32⟩ : BufTy).Contents (Elt F)),
    nullary main_cst (constant S_ .f32 0x3F800000#32),
    unary main_cst main_v12 (broadcastInDim S4096x4096 ![] bcast_S_S4096x4096 : (⟨S_, .f32⟩ : BufTy).Contents (Elt F) → (⟨S4096x4096, .f32⟩ : BufTy).Contents (Elt F)),
    binary main_v11 main_v12 main_v13 (subf : (⟨S4096x4096, .f32⟩ : BufTy).Contents (Elt F) → (⟨S4096x4096, .f32⟩ : BufTy).Contents (Elt F) → (⟨S4096x4096, .f32⟩ : BufTy).Contents (Elt F)),
    unary main_v13 main_v14 ((truncf .bf16 · bitsLt_bf16_f32) : (⟨S4096x4096, .f32⟩ : BufTy).Contents (Elt F) → (⟨S4096x4096, .bf16⟩ : BufTy).Contents (Elt F)),
    reshape main_arg2 main_v15 rfl shapeCasts_S_S1x1 ]

set_option maxRecDepth 8192 in
/-- They are the program's host operations before the region. -/
theorem ops_eq : List.flatten [(hostOps0 : List (HloOp τ sig (Elt F))), hostOps0_1, hostOps0_2] = ops := rfl

/-- The divisor as the remainder takes it: one in place of zero, else the divisor. -/
def divisor : IVec S_ 32 :=
  select (cmpi .eq (id (constantI S_ 32 16#32)) (constantI S_ 32 0#32)) (constantI S_ 32 1#32) (id (constantI S_ 32 16#32))

/-- The machine remainder of the column number. -/
def colRem : IVec S4096 32 := Host.remsi (iotaInDim S4096 32 0) (broadcastInDim S4096 ![] bcast_S_S4096 divisor)

/-- The divisor-signed remainder of the column number: the machine remainder, plus the divisor where the two have opposite signs
    and the remainder is not zero. -/
def colMod : IVec S4096 32 :=
  select (andi (cmpi .ne (cmpi .slt colRem (broadcastInDim S4096 ![] bcast_S_S4096 (constantI S_ 32 0#32))) (broadcastInDim S4096 ![] bcast_S_S4096 (cmpi .slt divisor (constantI S_ 32 0#32))))
      (cmpi .ne colRem (broadcastInDim S4096 ![] bcast_S_S4096 (constantI S_ 32 0#32))))
    (addi colRem (broadcastInDim S4096 ![] bcast_S_S4096 divisor)) colRem

/-- The shift amounts, one row of them repeated down the rows. -/
def shifts : IVec S4096x4096 32 :=
  broadcastInDim S4096x4096 ![0, 1] bcast_S1x4096_S4096x4096_0_1 (broadcastInDim S1x4096 ![1] bcast_S4096_S1x4096_1
    (muli colMod (broadcastInDim S4096 ![] bcast_S_S4096 (constantI S_ 32 2#32))))

/-- The weight codes: every packed word repeated sixteen times along its row, shifted, the low two bits kept. -/
def codes (pw : IVec S4096x256 32) : IVec S4096x4096 32 :=
  andi (Host.shrsi (shapeCast S4096x4096 (broadcastInDim S4096x256x16 ![0, 1] bcast_S4096x256_S4096x256x16_0_1 pw) shapeCasts_S4096x256x16_S4096x4096) shifts)
    (broadcastInDim S4096x4096 ![] bcast_S_S4096x4096 (constantI S_ 32 3#32))

/-- The weight array the region reads. -/
def weights (pw : IVec S4096x256 32) : FVec F S4096x4096 .bf16 :=
  truncf .bf16 (subf (sitofp .f32 (codes pw)) (broadcastInDim S4096x4096 ![] bcast_S_S4096x4096 (constant S_ .f32 0x3F800000#32))) bitsLt_bf16_f32

variable (m : (ℓ : Loc nD τ sig) → Buf (Elt F) ℓ)

/-- The region's arrays are the fold of the forty operations over the launch contents. -/
theorem V_eq (c : Dev nD) (b : Ref sig .tc) :
    V m c b = after (ops (F := F)) (fun b => m (c, b)) (Proc.devRef .tc b) :=
  congrArg (fun l => after l (fun b => m (c, b)) (Proc.devRef .tc b)) ops_eq

set_option maxHeartbeats 1000000 in
/-- The weight window's array at region entry. -/
theorem weights_eq (c : Dev nD) : V m c main_v14 = weights (F := F) (m ((c : Thread nD τ).loc main_arg1)) :=
  (V_eq m c main_v14).trans (by after_results_simp <;> rfl)

set_option maxHeartbeats 1000000 in
/-- The scale window's array at region entry: the scale, as a [1, 1] block. -/
theorem scale_eq (c : Dev nD) : V m c main_v15 = shapeCast S1x1 (m ((c : Thread nD τ).loc main_arg2)) shapeCasts_S_S1x1 :=
  (V_eq m c main_v15).trans (by after_results_simp <;> rfl)

end Cert.KernelIdeal.Prefix

end
-- ==== Proof.Spec.lean ====
/-
  A linear layer with two-bit packed weights, as ONE function of its three arguments.

  Each 32-bit word of the packed array holds sixteen two-bit fields; field `k` of word `p` of row `o` is column
  `16·p + k` of row `o` of the weight code, and the weight entry is that code less one. The layer's output at
  `(t, o)` is the inner product of row `t` of the activations with row `o` of the weights, times the scale.

  Also here: the law that joins the two programs. One of them first divides row `t` of the activations by a
  per-row factor `s`, scales every weight, and multiplies the inner product by `s` again; for real entries and a
  real `s ≠ 0` that is the same number, because a common factor moves across a finite sum of reals. On the extended
  reals the step is false at the infinities, which is why every quantity is first shown to be a real.
-/
import Idealize.ShloMosaic.PureOps.Ideal
import Idealize.ShloMosaic.PureOps.Ideal.Laws
import Idealize.ShloMosaic.Lib.ValueIdx

noncomputable section

namespace Cert.PackedLinear

open Idealize.ShloMosaic Idealize.ShloMosaic.ValueIdx

/-- The amount that brings field `k` of a packed word down to the low two bits: the word `k · 2`. -/
def fieldShift (k : Fin 16) : BitVec 32 := IntOp.muli (BitVec.ofNat 32 k.val) 2#32

/-- Column `i` of row `o` of the weight code: word `i / 16` of the row, shifted right by field `i % 16`'s amount,
    the low two bits kept. -/
def code (pw : (⟨2, ![4096, 256]⟩ : Shape).Idx → BitVec 32) (o i : Fin 4096) : BitVec 32 :=
  IntOp.andi (IntOp.shrsi .host (pw (ix2 o (⟨i.val / 16, by have := i.isLt; omega⟩ : Fin 256)))
    (fieldShift ⟨i.val % 16, Nat.mod_lt _ (by decide)⟩)) 3#32

/-- The weight entry: the code read as a signed integer, less one. -/
def wgt (pw : (⟨2, ![4096, 256]⟩ : Shape).Idx → BitVec 32) (o i : Fin 4096) : Ideal .f32 :=
  FloatOps.subf (F := Ideal) (FloatOps.sitofp (F := Ideal) .f32 (code pw o i)) (FloatOps.ofBits (F := Ideal) .f32 0x3F800000#32)

/-- The layer at row `t`, output column `o`. -/
def outAt (x : (⟨2, ![8192, 4096]⟩ : Shape).Idx → Ideal .f32) (pw : (⟨2, ![4096, 256]⟩ : Shape).Idx → BitVec 32)
    (sc : (⟨0, ![]⟩ : Shape).Idx → Ideal .f32) (t : Fin 8192) (o : Fin 4096) : Ideal .f32 :=
  (∑ k : Fin 4096, x (ix2 t k) * wgt pw o k) * sc ix0

/-- The layer's whole output. -/
def out (x : (⟨2, ![8192, 4096]⟩ : Shape).Idx → Ideal .f32) (pw : (⟨2, ![4096, 256]⟩ : Shape).Idx → BitVec 32)
    (sc : (⟨0, ![]⟩ : Shape).Idx → Ideal .f32) : (⟨2, ![8192, 4096]⟩ : Shape).Idx → Ideal .f32 :=
  fun j => outAt x pw sc (j 0) (j 1)

/-- Every weight entry is a real number: an integer less one. -/
theorem wgt_real (pw : (⟨2, ![4096, 256]⟩ : Shape).Idx → BitVec 32) (o i : Fin 4096) : ∃ r : ℝ, wgt pw o i = (r : EReal) := by
  refine ⟨((code pw o i).toInt : ℝ) - 1, ?_⟩
  show (((code pw o i).toInt : ℝ) : EReal) - Ideal.ofBits .f32 0x3F800000#32 = _
  have h1 : Ideal.ofBits .f32 0x3F800000#32 = ((1 : ℝ) : EReal) := by
    simp [Ideal.ofBits, Ideal.ieee]
    first
      | (rw [← EReal.coe_mul]; norm_num)
      | norm_num
      | (norm_cast; norm_num)
  rw [h1, ← EReal.coe_sub]

/-- A real sum, seen in the extended reals, is the sum of its terms seen there. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A per-row factor cancels: dividing every activation of a row by a real `s ≠ 0`, scaling every weight by `c`, and
    multiplying the inner product by `s` again gives the plain inner product times `c`. -/
theorem rescaled_row {n : ℕ} (a b : Fin n → ℝ) (c s : ℝ) (hs : s ≠ 0) :
    (∑ k : Fin n, Ideal.div (a k : EReal) (s : EReal) * ((b k : EReal) * (c : EReal))) * (s : EReal)
      = (∑ k : Fin n, (a k : EReal) * (b k : EReal)) * (c : EReal) := by
  have hl : ∀ k : Fin n, Ideal.div (a k : EReal) (s : EReal) * ((b k : EReal) * (c : EReal))
      = ((a k * (1 / s) * (b k * c) : ℝ) : EReal) := by
    intro k
    rw [Ideal.div_coe hs, ← EReal.coe_mul, ← EReal.coe_mul, ← EReal.coe_mul]
  have hr : ∀ k : Fin n, (a k : EReal) * (b k : EReal) = ((a k * b k : ℝ) : EReal) := fun k => (EReal.coe_mul _ _).symm
  simp only [hl, hr]
  rw [← coe_sum, ← coe_sum, ← EReal.coe_mul, ← EReal.coe_mul]
  congr 1
  rw [Finset.sum_mul, Finset.sum_mul]
  refine Finset.sum_congr rfl fun k _ => ?_
  field_simp

end Cert.PackedLinear

end
-- ==== Proof.KernelWeights.lean ====
/-
  The weight array the region reads, entry by entry.

  Entry `(o, i)` of the array the host operations leave is the specification's weight entry: the packed word at
  `(o, i / 16)` — row-major, a [4096, 256, 16] array read as [4096, 4096] puts `(o, p, k)` at column `16·p + k` —
  shifted right by twice the divisor-signed remainder of `i` by 16, which for a column number below 4096 and the divisor 16 is
  `i mod 16` (both operands are non-negative, so the correction for opposite signs never applies), the low two bits
  kept, read as an integer, less one; narrowing to the matrix unit's format changes nothing on the extended reals.
-/
import proofs.«411865_j57939108823183_3_alg».proof.Proof.KernelPrefix
import proofs.«411865_j57939108823183_3_alg».proof.Proof.Spec
import Idealize.ShloMosaic.Lib.Pipeline.Value
import Idealize.ShloMosaic.Lib.ValueIdx

noncomputable section

namespace Cert.KernelIdeal.Prefix

open Cert.KernelIdeal Cert.KernelIdeal.Gen Idealize.ShloMosaic Idealize.ShloMosaic.ValueIdx

/-- The divisor-signed remainder by 16 of the number `n`, as the word arithmetic the program spells. -/
def modWord (n : Nat) : BitVec 32 :=
  let d : BitVec 32 := Scalar.select (IntOp.cmpi .eq (16#32 : BitVec 32) 0#32) 1#32 16#32
  let r : BitVec 32 := IntOp.remsi .host (BitVec.ofNat 32 n) d
  Scalar.select (IntOp.andi (IntOp.cmpi .ne (IntOp.cmpi .slt r 0#32) (IntOp.cmpi .slt d 0#32)) (IntOp.cmpi .ne r 0#32)) (IntOp.addi r d) r

/-- For a column number it is the number's remainder by 16 (checked column by column). -/
theorem modWord_eq : ∀ i : Fin 4096, modWord i.val = BitVec.ofNat 32 (i.val % 16) := by decide +kernel

/-- A scalar broadcast along the columns reads, at every column, the scalar. -/
theorem splat32 (v : IVec S_ 32) (i : Fin 4096) : broadcastInDim S4096 ![] bcast_S_S4096 v (ix1 i) = v ix0 :=
  broadcastInDim_apply _ bcast_S_S4096 v (ix1 i) ix0 (fun a => a.elim0)
theorem splat1 (v : IVec S_ 1) (i : Fin 4096) : broadcastInDim S4096 ![] bcast_S_S4096 v (ix1 i) = v ix0 :=
  broadcastInDim_apply _ bcast_S_S4096 v (ix1 i) ix0 (fun a => a.elim0)

/-- The divisor-signed remainder of column number `i` by 16 is `i mod 16`. -/
theorem colMod_at (i : Fin 4096) : colMod (ix1 i) = BitVec.ofNat 32 (i.val % 16) := by
  rw [← modWord_eq i]
  unfold colMod colRem
  simp only [select, andi, cmpi, addi, Host.remsi, splat32, splat1]
  rfl

/-- The shift amount at column `i`, in any row: field `i mod 16`'s. -/
theorem shifts_at (o i : Fin 4096) : shifts (ix2 o i) = Cert.PackedLinear.fieldShift ⟨i.val % 16, Nat.mod_lt _ (by decide)⟩ := by
  unfold shifts
  refine (broadcastInDim_apply _ bcast_S1x4096_S4096x4096_0_1 _ (ix2 o i) (ix2 (0 : Fin 1) i) (fun a => by
    match a with
    | ⟨0, _⟩ => show (0 : Nat) = if (1 : Nat) = 1 then 0 else o.val; rw [if_pos rfl]
    | ⟨1, _⟩ => show i.val = if (4096 : Nat) = 1 then 0 else i.val; rw [if_neg (by decide)])).trans ?_
  refine (broadcastInDim_apply _ bcast_S4096_S1x4096_1 _ (ix2 (0 : Fin 1) i) (ix1 i) (fun a => by
    match a with
    | ⟨0, _⟩ => show i.val = if (4096 : Nat) = 1 then 0 else i.val; rw [if_neg (by decide)])).trans ?_
  show IntOp.muli (colMod (ix1 i)) (broadcastInDim S4096 ![] bcast_S_S4096 (constantI S_ 32 2#32) (ix1 i)) = _
  rw [colMod_at, splat32]
  rfl

/-- The weight code the host operations leave at `(o, i)` is the specification's. -/
theorem codes_at (pw : IVec S4096x256 32) (o i : Fin 4096) : codes pw (ix2 o i) = Cert.PackedLinear.code pw o i := by
  unfold codes
  show IntOp.andi (IntOp.shrsi .host
      (shapeCast S4096x4096 (broadcastInDim S4096x256x16 ![0, 1] bcast_S4096x256_S4096x256x16_0_1 pw) shapeCasts_S4096x256x16_S4096x4096 (ix2 o i))
      (shifts (ix2 o i)))
    (broadcastInDim S4096x4096 ![] bcast_S_S4096x4096 (constantI S_ 32 3#32) (ix2 o i)) = _
  have hword : shapeCast S4096x4096 (broadcastInDim S4096x256x16 ![0, 1] bcast_S4096x256_S4096x256x16_0_1 pw) shapeCasts_S4096x256x16_S4096x4096 (ix2 o i)
      = pw (ix2 o (⟨i.val / 16, by have := i.isLt; omega⟩ : Fin 256)) := by
    refine (shapeCast_apply _ shapeCasts_S4096x256x16_S4096x4096 (ix2 o i)
      (ix3 o (⟨i.val / 16, by have := i.isLt; omega⟩ : Fin 256) (⟨i.val % 16, Nat.mod_lt _ (by decide)⟩ : Fin 16)) (by
        rewrite [Shape.rowMajor_val_three, Shape.rowMajor_val_two]
        show (o.val * 256 + i.val / 16) * 16 + i.val % 16 = o.val * 4096 + i.val
        omega)).trans ?_
    exact broadcastInDim_apply _ bcast_S4096x256_S4096x256x16_0_1 pw _ (ix2 o (⟨i.val / 16, by have := i.isLt; omega⟩ : Fin 256)) (fun a => by
      match a with
      | ⟨0, _⟩ => show o.val = if (4096 : Nat) = 1 then 0 else o.val; rw [if_neg (by decide)]
      | ⟨1, _⟩ => show i.val / 16 = if (256 : Nat) = 1 then 0 else i.val / 16; rw [if_neg (by decide)])
  have hmask : broadcastInDim S4096x4096 ![] bcast_S_S4096x4096 (constantI S_ 32 3#32) (ix2 o i) = 3#32 :=
    broadcastInDim_apply _ bcast_S_S4096x4096 (constantI S_ 32 3#32) (ix2 o i) ix0 (fun a => a.elim0)
  rw [hword, shifts_at, hmask]
  rfl

/-- The weight array at `(o, i)` is the specification's weight entry. -/
theorem weights_at (pw : IVec S4096x256 32) (o i : Fin 4096) :
    weights (F := Ideal) pw (ix2 o i) = Cert.PackedLinear.wgt pw o i := by
  unfold weights
  show FloatOps.subf (F := Ideal) (FloatOps.sitofp (F := Ideal) .f32 (codes pw (ix2 o i)))
    (broadcastInDim S4096x4096 ![] bcast_S_S4096x4096 (constant (F := Ideal) S_ .f32 0x3F800000#32) (ix2 o i)) = _
  have hone : broadcastInDim S4096x4096 ![] bcast_S_S4096x4096 (constant (F := Ideal) S_ .f32 0x3F800000#32) (ix2 o i)
      = FloatOps.ofBits (F := Ideal) .f32 0x3F800000#32 :=
    broadcastInDim_apply _ bcast_S_S4096x4096 (constant (F := Ideal) S_ .f32 0x3F800000#32) (ix2 o i) ix0 (fun a => a.elim0)
  rw [hone, codes_at]
  rfl

/-- The scale block's one entry is the scale. -/
theorem scale_at (sc : FVec Ideal S_ .f32) : shapeCast S1x1 sc shapeCasts_S_S1x1 (ix2 (0 : Fin 1) (0 : Fin 1)) = sc ix0 :=
  shapeCast_apply sc shapeCasts_S_S1x1 (ix2 (0 : Fin 1) (0 : Fin 1)) ix0 (by
    have h := (S_.rowMajor ix0).isLt
    have h' := (S1x1.rowMajor (ix2 (0 : Fin 1) (0 : Fin 1))).isLt
    have e0 : S_.numel = 1 := by decide
    have e1 : S1x1.numel = 1 := by decide
    omega)

end Cert.KernelIdeal.Prefix

end
-- ==== Proof.RefValue.lean ====
/-
  The reference, entry by entry, and why it is the layer.

  The reference unpacks the same weight codes (a [4096, 256, 16] array of shifted and masked words read row-major as
  [4096, 4096]), scales every weight, divides row `t` of the activations by the row factor
  `s_t = max(floor, max_k |x_tk|)`, takes the inner products, and multiplies row `t` of the result by `s_t`. When every
  activation and the scale are real numbers, `s_t` is a real number and is at least the positive floor, so it is not
  zero, and the factor cancels.
-/
import proofs.«411865_j57939108823183_3_alg».proof.Proof.RefRead
import proofs.«411865_j57939108823183_3_alg».proof.Proof.Spec

noncomputable section

namespace Cert.ReferenceIdeal.RefValue

open Cert.ReferenceIdeal Cert.ReferenceIdeal.Gen Cert.ReferenceIdeal.ReadP Idealize.ShloMosaic Idealize.ShloMosaic.ValueIdx Cert.PackedLinear

/-! ## The weights -/

/-- The reference's weight code at `(o, i)` is the specification's. -/
theorem code_at (pw : IVec S4096x256 32) (o i : Fin 4096) : val_main_v10 (F := Ideal) pw (ix2 o i) = code pw o i := by
  simp only [val_main_v10_apply, val_main_v9_apply, val_main_v7_apply, val_main_v5_apply, val_main_v3_apply, val_main_v6_apply,
    val_main_v4_apply, val_main_v2_apply, val_main_v0_apply, val_main_v1_apply, val_main_c_apply, val_main_v8_apply, val_main_c_0_apply]
  have e1 : idx_main_v3 (idx_main_v5 (idx_main_v10 (ix2 o i))) = ix2 o (⟨i.val / 16, by have := i.isLt; omega⟩ : Fin 256) :=
    funext fun a => Fin.ext (by
      match a with
      | ⟨0, _⟩ => show (o.val * 4096 + i.val) / 4096 = o.val; have := i.isLt; omega
      | ⟨1, _⟩ => show (o.val * 4096 + i.val) / 16 % 256 = i.val / 16; have := i.isLt; omega)
  have e2 : ((ix2 o i 0).val * 4096 + (ix2 o i 1).val) % 16 = i.val % 16 := by
    show (o.val * 4096 + i.val) % 16 = i.val % 16; omega
  rw [e1, e2]
  rfl

/-- The reference's scaled weight at `(o, k)`. -/
theorem scaledWeight_at (pw : IVec S4096x256 32) (sc : FVec Ideal S_ .f32) (o k : Fin 4096) :
    val_main_v15 (F := Ideal) pw sc (ix2 o k) = wgt pw o k * sc ix0 := by
  simp only [val_main_v15_apply, val_main_v13_apply, val_main_v11_apply, val_main_v12_apply, val_main_cst_apply, val_main_v14_apply, code_at]
  rfl

/-! ## The row factor -/

/-- The floor of the row factor is a positive real. -/
theorem floor_pos : ∃ l : ℝ, 0 < l ∧ Ideal.ofBits .f32 0x3727C5AC#32 = (l : EReal) := by
  simp [Ideal.ofBits, Ideal.ieee]
  refine ⟨_, ?_, (EReal.coe_mul _ _).symm⟩
  positivity

theorem reducesRow : S8192x4096.Reduces [1] S8192 := by decide

/-- The largest magnitude of a row of real numbers is not `+∞`: it is a maximum, from `−∞`, of finitely many
    magnitudes of reals. -/
theorem rowMax_lt_top (x : FVec Ideal S8192x4096 .f32) (hx : ∀ i, ∃ r : ℝ, x i = (r : EReal)) (t : Fin 8192) :
    val_main_v17 (F := Ideal) x (ix1 t) < ⊤ := by
  unfold val_main_v17
  rw [Host.reduce_eq_fold_single FloatOps.maximumf _ _ reducesTo_S8192x4096_S8192_d1 reducesRow h_S_]
  refine (Finset.fold_op_rel_iff_and (r := fun (a b : Ideal .f32) => b < a)
    (fun {a y z} => (max_lt_iff : max y z < a ↔ y < a ∧ z < a))).2 ⟨?_, fun k _ => ?_⟩
  · show Ideal.ofBits .f32 0xFF800000#32 < ⊤
    simp [Ideal.ofBits, Ideal.ieee]
  · show max (x (reducesRow.lift (ix1 t) k)) (-(x (reducesRow.lift (ix1 t) k))) < ⊤
    obtain ⟨r, hr⟩ := hx (reducesRow.lift (ix1 t) k)
    rw [hr]
    exact max_lt (EReal.coe_lt_top _) (by rw [← EReal.coe_neg]; exact EReal.coe_lt_top _)

attribute [local irreducible] val_main_v17 in
/-- The row factor `s_t`: the floor or the row's largest magnitude, whichever is larger. -/
theorem rowFactor_eq (x : FVec Ideal S8192x4096 .f32) (t : Fin 8192) :
    val_main_v19 (F := Ideal) x (ix2 t (0 : Fin 1)) = max (Ideal.ofBits .f32 0x3727C5AC#32) (val_main_v17 (F := Ideal) x (ix1 t)) := by
  have e : idx_main_v18 (ix2 t (0 : Fin 1)) = ix1 t := funext fun a => Fin.ext (by match a with | ⟨0, _⟩ => rfl)
  rw [val_main_v19_apply, val_main_call0_v1_apply, val_main_call0_v0_apply, val_main_cst_2_apply, val_main_v18_apply, e,
    Ideal.maximumf_def, Ideal.ofBits_def]

/-- For a row of real numbers the row factor is a real number other than zero. -/
theorem rowFactor_real (x : FVec Ideal S8192x4096 .f32) (hx : ∀ i, ∃ r : ℝ, x i = (r : EReal)) (t : Fin 8192) :
    ∃ s : ℝ, s ≠ 0 ∧ val_main_v19 (F := Ideal) x (ix2 t (0 : Fin 1)) = (s : EReal) := by
  obtain ⟨l, hl, hlo⟩ := floor_pos
  rw [rowFactor_eq, hlo]
  have hM := rowMax_lt_top x hx t
  have hpos : (0 : EReal) < max (l : EReal) (val_main_v17 (F := Ideal) x (ix1 t)) :=
    lt_of_lt_of_le (by exact_mod_cast hl) (le_max_left _ _)
  have htop : max (l : EReal) (val_main_v17 (F := Ideal) x (ix1 t)) ≠ ⊤ := (max_lt (EReal.coe_lt_top l) hM).ne
  have hbot : max (l : EReal) (val_main_v17 (F := Ideal) x (ix1 t)) ≠ ⊥ := (lt_trans EReal.bot_lt_zero hpos).ne'
  refine ⟨(max (l : EReal) (val_main_v17 (F := Ideal) x (ix1 t))).toReal, ?_, (EReal.coe_toReal htop hbot).symm⟩
  intro h0
  have : max (l : EReal) (val_main_v17 (F := Ideal) x (ix1 t)) = 0 := by
    rw [← EReal.coe_toReal htop hbot, h0]; rfl
  exact hpos.ne' this

/-! ## The reference is the layer -/

/-- Under the finiteness facts the reference's result is the layer, entry by entry. -/
theorem result_eq (x : FVec Ideal S8192x4096 .f32) (pw : IVec S4096x256 32) (sc : FVec Ideal S_ .f32)
    (hx : ∀ i, ∃ r : ℝ, x i = (r : EReal)) (hsc : ∃ r : ℝ, sc ix0 = (r : EReal)) :
    val_main_v24 (F := Ideal) x pw sc = out x pw sc := by
  funext j
  obtain ⟨t, o, rfl⟩ : ∃ (t : Fin 8192) (o : Fin 4096), j = ix2 t o := ⟨j 0, j 1, eq_ix2 j⟩
  rw [val_main_v24_apply, val_main_v22_apply, val_main_v23_apply]
  have e23 : idx_main_v23 (ix2 t o) = ix2 t (0 : Fin 1) :=
    funext fun a => Fin.ext (by match a with | ⟨0, _⟩ => rfl | ⟨1, _⟩ => rfl)
  have hl : ∀ k : Fin 4096, lidx_main_v22 (ix2 t o) k = ix2 t k := fun k =>
    funext fun a => Fin.ext (by match a with | ⟨0, _⟩ => rfl | ⟨1, _⟩ => rfl)
  have hr : ∀ k : Fin 4096, ridx_main_v22 (ix2 t o) k = ix2 o k := fun k =>
    funext fun a => Fin.ext (by match a with | ⟨0, _⟩ => rfl | ⟨1, _⟩ => rfl)
  have h21 : ∀ k : Fin 4096, val_main_v21 (F := Ideal) x (ix2 t k)
      = Ideal.div (x (ix2 t k)) (val_main_v19 (F := Ideal) x (ix2 t (0 : Fin 1))) := by
    intro k
    rw [val_main_v21_apply, val_main_v20_apply]
    have e20 : idx_main_v20 (ix2 t k) = ix2 t (0 : Fin 1) :=
      funext fun a => Fin.ext (by match a with | ⟨0, _⟩ => rfl | ⟨1, _⟩ => rfl)
    rw [e20]
    rfl
  simp only [hl, hr, e23, h21, scaledWeight_at]
  obtain ⟨s, hs0, hsv⟩ := rowFactor_real x hx t
  obtain ⟨cr, hc⟩ := hsc
  choose a ha using fun k : Fin 4096 => hx (ix2 t k)
  choose b hb using fun k : Fin 4096 => wgt_real pw o k
  show (∑ k : Fin 4096, Ideal.div (x (ix2 t k)) (val_main_v19 (F := Ideal) x (ix2 t (0 : Fin 1))) * (wgt pw o k * sc ix0))
      * val_main_v19 (F := Ideal) x (ix2 t (0 : Fin 1))
    = (∑ k : Fin 4096, x (ix2 t k) * wgt pw o k) * sc ix0
  simp only [hsv, ha, hb, hc]
  exact rescaled_row a b cr s hs0

end Cert.ReferenceIdeal.RefValue

end
-- ==== Proof.Finite.lean ====
/-
  What the precondition says: every activation and the scale are real numbers.

  The precondition is the conjunction of two `all`s — of `|x| < +∞` over the activations and of `|scale| < +∞`. An
  extended real whose magnitude `max(v, −v)` lies below `+∞` is neither `+∞` nor `−∞`: it is a real number.
-/
import proofs.«411865_j57939108823183_3_alg».proof.Pre_finite_inputs
import Idealize.ShloMosaic.PureOps.Ideal
import Idealize.ShloMosaic.Lib.ReduceAll
import Idealize.ShloMosaic.Lib.ValueIdx
import Idealize.ShloMosaic.Lib.Pipeline.Value

noncomputable section

namespace Cert.Pre_finite_inputs.Reals

open Cert.Pre_finite_inputs Idealize.ShloMosaic Idealize.ShloMosaic.ValueIdx

instance : Subsingleton S_.Idx := ⟨fun a b => funext fun d => d.elim0⟩

/-- A magnitude that compares below the word of `+∞` belongs to a real number. -/
theorem real_of_magnitude (v : EReal) (h : Ideal.cmp .olt (max v (-v)) (Ideal.ofBits .f32 0x7F800000#32) = 1#1) :
    ∃ r : ℝ, v = (r : EReal) := by
  have htop : Ideal.ofBits .f32 0x7F800000#32 = ⊤ := by simp [Ideal.ofBits, Ideal.ieee]
  rw [htop] at h
  have hlt : max v (-v) < ⊤ := by
    by_contra hn
    simp [Ideal.cmp, hn] at h
  have h1 : v ≠ ⊤ := fun e => by rw [e] at hlt; simp at hlt
  have h2 : v ≠ ⊥ := fun e => by rw [e] at hlt; simp at hlt
  exact ⟨v.toReal, (EReal.coe_toReal h1 h2).symm⟩

variable [Facts]

/-- The precondition, read back. -/
theorem reals_of_pre (x : FVec Ideal S8192x4096 .f32) (pw : IVec S4096x256 32) (sc : FVec Ideal S_ .f32)
    (h : fn (F := Ideal) x pw sc = fun _ => 1#1) :
    (∀ i, ∃ r : ℝ, x i = (r : EReal)) ∧ ∃ r : ℝ, sc ix0 = (r : EReal) := by
  have h0 : IntOp.andi
      (Host.reduce IntOp.andi (cmpf .olt (Host.absf x) (broadcastInDim S8192x4096 ![] Facts.bcast_S_S8192x4096 (constant (F := Ideal) S_ .f32 0x7F800000#32)))
        (constantI S_ 1 1#1) Facts.reducesTo_S8192x4096_S_d0_1 Facts.h_S_ ix0)
      (Host.reduce IntOp.andi (cmpf .olt (Host.absf sc) (constant (F := Ideal) S_ .f32 0x7F800000#32))
        (constantI S_ 1 1#1) Facts.reducesTo_S_S_d Facts.h_S_ ix0) = 1#1 := congrFun h ix0
  obtain ⟨hA, hB⟩ := IntOp.andi_eq_one.1 h0
  have hx := Host.reduce_andi_all _ _ Facts.reducesTo_S8192x4096_S_d0_1 Facts.h_S_ ix0 hA
  have hs := Host.reduce_andi_all _ _ Facts.reducesTo_S_S_d Facts.h_S_ ix0 hB
  refine ⟨fun i => ?_, ?_⟩
  · have hi : Ideal.cmp .olt (max (x i) (-(x i)))
        (broadcastInDim S8192x4096 ![] Facts.bcast_S_S8192x4096 (constant (F := Ideal) S_ .f32 0x7F800000#32) i) = 1#1 := hx i
    rw [broadcastInDim_apply _ Facts.bcast_S_S8192x4096 (constant (F := Ideal) S_ .f32 0x7F800000#32) i ix0 (fun a => a.elim0)] at hi
    exact real_of_magnitude (x i) hi
  · exact real_of_magnitude (sc ix0) (hs ix0)

end Cert.Pre_finite_inputs.Reals

end
-- ==== Proof.lean ====
/-
  A linear layer with two-bit packed weights: the kernel against its reference, over the extended reals.

  Both programs unpack the same weight codes from the packed array — column `i` of row `o` is field `i mod 16` of word
  `i / 16` of row `o`, less one — and both contract row `t` of the activations with row `o` of the weights. The kernel
  multiplies the inner product by the scale. The reference scales every weight instead, divides row `t` of the
  activations by `s_t = max(floor, max_k |x_tk|)` before the product and multiplies by `s_t` after it. Where the
  activations and the scale are real numbers — the precondition — `s_t` is a real number at least the positive floor,
  and both programs compute `(Σ_k x_tk · w_ok) · scale` (Proof/Spec.lean: `out`, and the cancelling law
  `rescaled_row`).

  The kernel side: Proof/KernelBody.lean (the body's stored value at an entry of its block), Proof/KernelArray.lean
  (the 64 blocks tile the output array), Proof/KernelPrefix.lean and Proof/KernelWeights.lean (the weight array and
  the scale block the host operations before the region leave, entry by entry). The reference side:
  Proof/RefValue.lean (its result entry by entry, the row factor, the cancellation). Proof/Finite.lean reads the
  precondition back. The idealization rewrote no operation, so `preserves` has nothing to state.
-/
import proofs.«411865_j57939108823183_3_alg».proof.Defs
import proofs.«411865_j57939108823183_3_alg».proof.Proof.Gen.Kernel
import proofs.«411865_j57939108823183_3_alg».proof.Proof.Gen.Kernel.Skeleton
import proofs.«411865_j57939108823183_3_alg».proof.Proof.Gen.Kernel.Launch
import proofs.«411865_j57939108823183_3_alg».proof.Proof.Gen.Kernel.Points
import proofs.«411865_j57939108823183_3_alg».proof.Proof.Gen.Kernel.Frame
import proofs.«411865_j57939108823183_3_alg».proof.Proof.Gen.KernelIdeal
import proofs.«411865_j57939108823183_3_alg».proof.Proof.Gen.KernelIdeal.Skeleton
import proofs.«411865_j57939108823183_3_alg».proof.Proof.Gen.KernelIdeal.Launch
import proofs.«411865_j57939108823183_3_alg».proof.Proof.Gen.KernelIdeal.Points
import proofs.«411865_j57939108823183_3_alg».proof.Proof.Gen.KernelIdeal.Frame
import proofs.«411865_j57939108823183_3_alg».proof.Proof.Gen.ReferenceIdeal
import proofs.«411865_j57939108823183_3_alg».proof.Proof.Gen.Pre_finite_inputs
import proofs.«411865_j57939108823183_3_alg».proof.Proof.Gen.KernelIdeal.Value
import proofs.«411865_j57939108823183_3_alg».proof.Proof.KernelArray
import proofs.«411865_j57939108823183_3_alg».proof.Proof.KernelWeights
import proofs.«411865_j57939108823183_3_alg».proof.Proof.RefValue
import proofs.«411865_j57939108823183_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The rows-against-rows function of the arrays the region reads is the layer of the arguments: the weight array is
    the specification's weights entry by entry, and the scale block's one entry is the scale. -/
theorem kernel_value (x : FVec Ideal Cert.KernelIdeal.S8192x4096 .f32) (pw : IVec Cert.KernelIdeal.S4096x256 32)
    (sc : FVec Ideal Cert.KernelIdeal.S_ .f32) :
    Cert.KernelIdeal.Whole.rowsByRows x (Cert.KernelIdeal.Prefix.weights (F := Ideal) pw)
        (shapeCast Cert.KernelIdeal.S1x1 sc Cert.KernelIdeal.Gen.shapeCasts_S_S1x1)
      = Cert.PackedLinear.out x pw sc := by
  funext j
  unfold Cert.KernelIdeal.Whole.rowsByRows Cert.PackedLinear.out Cert.PackedLinear.outAt
  simp only [Cert.KernelIdeal.Prefix.weights_at, Cert.KernelIdeal.Prefix.scale_at]
  rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result array at the layer of the (agreeing) arguments. -/
theorem algebraic : Cert.algebraic_KernelIdeal_ReferenceIdeal := by
  intro m ρ m' ρ' hpre hagree
  refine ⟨fun c => Cert.PackedLinear.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩) (Cert.KernelIdeal.Whole.run m ρ)
    rw [Cert.KernelIdeal.Prefix.weights_eq, Cert.KernelIdeal.Prefix.scale_eq]
    exact kernel_value _ _ _
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v24_eq, (hagree c).1, (hagree c).2.1, (hagree c).2.2]
    obtain ⟨hx, hs⟩ := Cert.Pre_finite_inputs.Reals.reals_of_pre _ _ _ (hpre c)
    exact Cert.ReferenceIdeal.RefValue.result_eq _ _ _ hx hs

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
